-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S1x40 : Shape := ⟨2, ![1, 40]⟩
abbrev S100000x64 : Shape := ⟨2, ![100000, 64]⟩
abbrev S10000x128 : Shape := ⟨2, ![10000, 128]⟩
abbrev S10000x64 : Shape := ⟨2, ![10000, 64]⟩
abbrev S1 : Shape := ⟨1, ![1]⟩
abbrev S1x1 : Shape := ⟨2, ![1, 1]⟩
abbrev S1700000x64 : Shape := ⟨2, ![1700000, 64]⟩
abbrev S6800x64 : Shape := ⟨2, ![6800, 64]⟩
abbrev S6800x1 : Shape := ⟨2, ![6800, 1]⟩
abbrev S100000x40 : Shape := ⟨2, ![100000, 40]⟩
abbrev S10000x40 : Shape := ⟨2, ![10000, 40]⟩

abbrev nBuf : Space → Nat
  | .hbm => 118
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S1x64, .f32⟩
  | .hbm, ⟨51, _⟩ => ⟨S1x64, .f32⟩
  | .hbm, ⟨52, _⟩ => ⟨S1x40, .f32⟩
  | .hbm, ⟨53, _⟩ => ⟨S_, .f32⟩
  | .hbm, ⟨54, _⟩ => ⟨S1x64, .f32⟩
  | .hbm, ⟨55, _⟩ => ⟨S_, .f32⟩
  | .hbm, ⟨56, _⟩ => ⟨S1x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1, .i32⟩
  | .hbm, ⟨67, _⟩ => ⟨S_, .i32⟩
  | .hbm, ⟨68, _⟩ => ⟨S1700000x1, .i32⟩
  | .hbm, ⟨69, _⟩ => ⟨S1700000x1, .i1⟩
  | .hbm, ⟨70, _⟩ => ⟨S1x1, .i32⟩
  | .hbm, ⟨71, _⟩ => ⟨S1700000x1, .i32⟩
  | .hbm, ⟨72, _⟩ => ⟨S1700000x1, .i1⟩
  | .hbm, ⟨73, _⟩ => ⟨S1700000x1, .i1⟩
  | .hbm, ⟨74, _⟩ => ⟨S_, .i1⟩
  | .hbm, ⟨75, _⟩ => ⟨S1700000, .i1⟩
  | .hbm, ⟨76, _⟩ => ⟨S1700000x64, .f32⟩
  | .hbm, ⟨77, _⟩ => ⟨S1700000x64, .i1⟩
  | .hbm, ⟨78, _⟩ => ⟨S_, .f32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1, .i32⟩
  | .hbm, ⟨97, _⟩ => ⟨S_, .i32⟩
  | .hbm, ⟨98, _⟩ => ⟨S1700000x1, .i32⟩
  | .hbm, ⟨99, _⟩ => ⟨S1700000x1, .i1⟩
  | .hbm, ⟨100, _⟩ => ⟨S1x1, .i32⟩
  | .hbm, ⟨101, _⟩ => ⟨S1700000x1, .i32⟩
  | .hbm, ⟨102, _⟩ => ⟨S1700000x1, .i1⟩
  | .hbm, ⟨103, _⟩ => ⟨S1700000x1, .i1⟩
  | .hbm, ⟨104, _⟩ => ⟨S_, .i1⟩
  | .hbm, ⟨105, _⟩ => ⟨S1700000, .i1⟩
  | .hbm, ⟨106, _⟩ => ⟨S1700000x64, .f32⟩
  | .hbm, ⟨107, _⟩ => ⟨S1700000x64, .i1⟩
  | .hbm, ⟨108, _⟩ => ⟨S_, .f32⟩
  | .hbm, ⟨109, _⟩ => ⟨S1700000x64, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S100000x64, .f32⟩
  | .hbm, ⟨117, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S6800x64, .f32⟩
  | .local _ .vmem, ⟨7, _⟩ => ⟨S6800x64, .f32⟩
  | .local _ .vmem, ⟨8, _⟩ => ⟨S6800x1, .f32⟩
  | .local _ .vmem, ⟨9, _⟩ => ⟨S6800x1, .f32⟩
  | .local _ .vmem, ⟨10, _⟩ => ⟨S6800x64, .f32⟩
  | .local _ .vmem, ⟨11, _⟩ => ⟨S6800x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S6800x64, .f32⟩
  | .local _ .vmem, ⟨24, _⟩ => ⟨S6800x64, .f32⟩
  | .local _ .vmem, ⟨25, _⟩ => ⟨S6800x1, .f32⟩
  | .local _ .vmem, ⟨26, _⟩ => ⟨S6800x1, .f32⟩
  | .local _ .vmem, ⟨27, _⟩ => ⟨S6800x64, .f32⟩
  | .local _ .vmem, ⟨28, _⟩ => ⟨S6800x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x40, .f32⟩
  | .local _ .vmem, ⟨37, _⟩ => ⟨S1x40, .f32⟩
  | .local _ .vmem, ⟨38, _⟩ => ⟨S10000x40, .f32⟩
  | .local _ .vmem, ⟨39, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v45 : Ref sig .tc := ⟨.hbm, 110, rfl⟩
abbrev main_v46 : Ref sig .tc := ⟨.hbm, 111, rfl⟩
abbrev main_cst_9 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6800x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6800x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6800x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  shapeCasts_S64_S1x64 : S64.ShapeCasts S1x64
  shapeCasts_S40_S1x40 : S40.ShapeCasts S1x40
  bcast_S_S1x64 : S_.BroadcastsInDim S1x64 (![] : Fin 0 → Fin S1x64.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  inb_S6800x64_S6800x64_0_0 : ∀ a, (![0, 0] : Fin 2 → Nat) a + S6800x64.size a ≤ S6800x64.size a
  h_S6800x64 : 0 < S6800x64.numel
  shapeCasts_S6800x64_S6800x64 : S6800x64.ShapeCasts S6800x64
  inb_S6800x1_S6800x1_0_0 : ∀ a, (![0, 0] : Fin 2 → Nat) a + S6800x1.size a ≤ S6800x1.size a
  h_S6800x1 : 0 < S6800x1.numel
  shapeCasts_S6800x1_S6800x1 : S6800x1.ShapeCasts S6800x1
  broadcasts_S6800x1_S6800x64 : S6800x1.Broadcasts S6800x64
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x64.size a ≤ S1700000x64.size a
  hwx1_0 : ∀ i : grid1.Coords, EltTy.bits .f32 = 32 ∨ (Rect.block (s := S1700000x64) S6800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6800x1.size a ≤ S1700000x1.size a
  hwx1_1 : ∀ i : grid1.Coords, EltTy.bits .f32 = 32 ∨ (Rect.block (s := S1700000x1) S6800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x64.size a ≤ S1700000x64.size a
  hwx1_2 : ∀ i : grid1.Coords, EltTy.bits .f32 = 32 ∨ (Rect.block (s := S1700000x64) S6800x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6800x64.size a ≤ S1700000x64.size a
  hwx4_0 : ∀ i : grid4.Coords, EltTy.bits .f32 = 32 ∨ (Rect.block (s := S1700000x64) S6800x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6800x1.size a ≤ S1700000x1.size a
  hwx4_1 : ∀ i : grid4.Coords, EltTy.bits .f32 = 32 ∨ (Rect.block (s := S1700000x1) S6800x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6800x64.size a ≤ S1700000x64.size a
  hwx4_2 : ∀ i : grid4.Coords, EltTy.bits .f32 = 32 ∨ (Rect.block (s := S1700000x64) S6800x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x40.size a ≤ S64x40.size a
  hwx6_1 : ∀ i : grid6.Coords, EltTy.bits .f32 = 32 ∨ (Rect.block (s := S64x40) S64x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x40.size a ≤ S100000x40.size a
  hwx6_3 : ∀ i : grid6.Coords, EltTy.bits .f32 = 32 ∨ (Rect.block (s := S100000x40) S10000x40.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S6800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S6800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6800x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S6800x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S6800x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S6800x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v50) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v34) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v51) S10000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S100000, .i32⟩
  | 11 => ⟨S1700000, .i32⟩
  | 12 => ⟨S1x1600000, .i32⟩
  | 13 => ⟨S1600000, .i32⟩
  | 14 => ⟨S100000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x1600000, .i32⟩
  | 73 => ⟨S1600000, .i32⟩
  | 74 => ⟨S100000, .i32⟩
  | 75 => ⟨S1700000, .i32⟩
  | 76 => ⟨S1x1600000, .i32⟩
  | 77 => ⟨S1600000, .i32⟩
  | 78 => ⟨S100000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x128, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x40, .f32⟩
  | 9 => ⟨S1x40, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call3_cst : Ref sig .tc := ⟨.hbm, 133, rfl⟩
abbrev main_call3_v0 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.SrcRange.lean ====
/-
  The source ids of the messages stay inside the node range.

  The precondition's last conjunct says: every entry of row 0 of the edge table is at least 0 and below 100,000
  (the number of nodes), read as signed 32-bit words.  The message sources are that row followed by the node ids
  0, 1, …, 99,999 of the self-loops, so every one of the 1,700,000 sources is in the same range.  A source in that
  range is not moved by the wrap of negative indices (add 100,000 to a negative index), and the wrapped source lies
  between 0 and 99,999 — the two bounds a row gather that fills out-of-range rows tests.
-/
import proofs.«400588_j11596411699547_3_alg».proof.Defs
import proofs.«400588_j11596411699547_3_alg».proof.Proof.Gen.Pre_finite_inputs
import proofs.«400588_j11596411699547_3_alg».proof.Proof.Gen.ReferenceIdeal
import proofs.«400588_j11596411699547_3_alg».proof.Proof.RefRead
import proofs.«400588_j11596411699547_3_alg».proof.Proof.LibTakeFill
import Idealize.ShloMosaic.Lib.ReduceAll
import Idealize.ShloMosaic.Lib.StableHlo.Predicate
import Idealize.ShloMosaic.Lib.Pipeline.Value
import Idealize.ShloMosaic.Lib.ValueIdx

noncomputable section

namespace Cert.SrcRange

open Idealize.ShloMosaic Idealize.ShloMosaic.ValueIdx Idealize.SL.Sem
open Cert.ReferenceIdeal Cert.ReferenceIdeal.ReadP

instance : Subsingleton Cert.Pre_finite_inputs.S_.Idx := ⟨fun a b => funext fun d => d.elim0⟩

/-- A signed word is in the node range: at least 0 and below 100,000. -/
def InRange (w : BitVec 32) : Prop := IntOp.cmpi .sge w 0#32 = 1#1 ∧ IntOp.cmpi .slt w 100000#32 = 1#1

/-- The precondition read back: every entry of row 0 of the edge table is in the node range. -/
theorem heads_inRange (x0 : FVec Ideal S100000x128 .f32) (e : IVec S2x1600000 32) (x2 : FVec Ideal S128x64 .f32) (x3 : FVec Ideal S64 .f32)
    (x4 : FVec Ideal S64x64 .f32) (x5 : FVec Ideal S64 .f32) (x6 : FVec Ideal S64x40 .f32) (x7 : FVec Ideal S40 .f32)
    (h : Cert.Pre_finite_inputs.fn (F := Ideal) x0 e x2 x3 x4 x5 x6 x7 = fun _ => 1#1) (i : S1600000.Idx) :
    InRange (val_main_v1 (F := Ideal) e i) := by
  have h0 := congrFun h ix0
  unfold Cert.Pre_finite_inputs.fn Cert.Pre_finite_inputs.fn_part1 Cert.Pre_finite_inputs.fn_part2 at h0
  dsimp only at h0
  have h1 := (IntOp.andi_eq_one.1 h0).2
  have h2 := Host.reduce_andi_all _ _ _ _ _ h1 i
  obtain ⟨ha, hb⟩ := IntOp.andi_eq_one.1 h2
  exact ⟨ha, hb⟩

/-- A node id below 100,000, as a 32-bit word, is in the node range. -/
theorem inRange_ofNat (n : ℕ) (hn : n < 100000) : InRange (BitVec.ofNat 32 n) := by
  have hs : (BitVec.ofNat 32 n).toInt = n := StableHlo.Predicate.toInt_ofNat_small n (by omega)
  refine ⟨IntOp.cmpi_sge.2 ?_, IntOp.cmpi_slt.2 ?_⟩
  · rw [hs, show (0#32 : BitVec 32).toInt = 0 from by decide]; omega
  · rw [hs, show (100000#32 : BitVec 32).toInt = 100000 from by decide]; omega

/-- Every message source — row 0 of the edge table, then the self-loops' node ids — is in the node range. -/
theorem srcs_inRange (e : IVec S2x1600000 32) (hh : ∀ i : S1600000.Idx, InRange (val_main_v1 (F := Ideal) e i))
    (j : S1700000.Idx) : InRange (val_main_v3 (F := Ideal) e j) := by
  unfold val_main_v3
  have hj : (j 0).val < 1700000 := (j 0).isLt
  by_cases hlt : (j 0).val < 1600000
  · rw [concatenate_pair_apply_left (0 : Fin 1) (val_main_v1 (F := Ideal) e) (val_main_v2 (F := Ideal))
      _ j rfl (ix1 ⟨(j 0).val, hlt⟩) (fun b => by
        match b with
        | ⟨0, _⟩ => rfl)]
    exact hh _
  · have hge : 1600000 ≤ (j 0).val := Nat.le_of_not_lt hlt
    rw [concatenate_pair_apply_right (0 : Fin 1) (val_main_v1 (F := Ideal) e) (val_main_v2 (F := Ideal))
      _ j rfl rfl (ix1 ⟨(j 0).val - 1600000, by omega⟩) (fun b hb => by
        match b with
        | ⟨0, _⟩ => exact absurd rfl hb) (by
        show (j 0).val - 1600000 + 1600000 = (j 0).val
        omega)]
    rw [val_main_v2_apply]
    exact inRange_ofNat _ (by show (j 0).val - 1600000 < 100000; omega)

/-- The wrap of negative indices leaves every source alone. -/
theorem wrapped_eq (e : IVec S2x1600000 32) (hs : ∀ j : S1700000.Idx, InRange (val_main_v3 (F := Ideal) e j))
    (j : S1700000.Idx) : val_main_v36 (F := Ideal) e j = val_main_v3 (F := Ideal) e j := by
  rw [val_main_v36_apply, val_main_v33_apply, val_main_v35_apply, val_main_v32_apply, val_main_c_6_apply]
  exact Cert.LibTakeFill.wrap_of_nonneg _ _ (hs j).1

/-- The wrapped sources, as the column of index vectors the gather takes, lie between 0 and 99,999. -/
theorem wrapped_bounds (e : IVec S2x1600000 32) (hs : ∀ j : S1700000.Idx, InRange (val_main_v3 (F := Ideal) e j))
    (i : S1700000x1.Idx) :
    IntOp.cmpi .sge (val_main_v37 (F := Ideal) e i) 0#32 = 1#1 ∧ IntOp.cmpi .sle (val_main_v37 (F := Ideal) e i) 99999#32 = 1#1 := by
  rw [val_main_v37_apply, wrapped_eq e hs]
  exact ⟨(hs _).1, Cert.LibTakeFill.sle_pred_of_slt _ 100000#32 99999#32 (hs _).2 (by decide)⟩

end Cert.SrcRange

end
-- ==== Proof.HostChain.lean ====
/-
  The host side of the kernel's program, between its seven launches.

  Before the first launch the host computes, from the edge table alone, the message sources and targets (a row of the
  table followed by the self-loops' node ids) and the edge coefficients, reshapes the three bias vectors to rows and
  makes two zero rows: the same operations, in the same order, as the reference applies, so each of these buffers holds
  the reference's stage of the same name.  No launch and no later host operation writes them, so a later launch finds
  them unchanged.  Between launches the host gathers rows of a launch's result by the sources (with a fill for sources
  out of range) and adds the scaled messages into their target rows: both are stated here as one function of the
  buffers they read.
-/
import proofs.«400588_j11596411699547_3_alg».proof.Proof.Gen.KernelIdeal.Frame
import proofs.«400588_j11596411699547_3_alg».proof.Proof.RefRead
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## What the first launch finds -/

/-- The buffer contents when the first launch is entered, spelt as the three host stretches run from the launch
    memory. -/
theorem W3_eq (b : DevRef τ sig) :
    W3 m ρ c b = StableHlo.after hostOps0_2 (StableHlo.after hostOps0_1 (StableHlo.after hostOps0 (W0 m ρ c))) b := rfl

/-- The message sources. -/
theorem src3 : W3 m ρ c (Proc.devRef .tc main_v3) = Cert.ReferenceIdeal.ReadP.val_main_v3 (F := F) (m ((c : Thread nD τ).loc main_arg1)) := by
  rw [W3_eq]; after_results; rfl
/-- The message targets. -/
theorem dst3 : W3 m ρ c (Proc.devRef .tc main_v7) = Cert.ReferenceIdeal.ReadP.val_main_v7 (F := F) (m ((c : Thread nD τ).loc main_arg1)) := by
  rw [W3_eq]; after_results; rfl
/-- The edge coefficients, as a column. -/
theorem nrm3 : W3 m ρ c (Proc.devRef .tc main_v31)
    = shapeCast S1700000x1 (Cert.ReferenceIdeal.ReadP.val_main_v30 (F := F) (m ((c : Thread nD τ).loc main_arg1))) shapeCasts_S1700000_S1700000x1 := by
  rw [W3_eq]; after_results_simp; rfl
/-- The three bias vectors as rows. -/
theorem b1r3 : W3 m ρ c (Proc.devRef .tc main_v32) = shapeCast S1x64 (m ((c : Thread nD τ).loc main_arg3)) shapeCasts_S64_S1x64 := by
  rw [W3_eq]; after_results; rfl
theorem b2r3 : W3 m ρ c (Proc.devRef .tc main_v33) = shapeCast S1x64 (m ((c : Thread nD τ).loc main_arg5)) shapeCasts_S64_S1x64 := by
  rw [W3_eq]; after_results; rfl
theorem bhr3 : W3 m ρ c (Proc.devRef .tc main_v34) = shapeCast S1x40 (m ((c : Thread nD τ).loc main_arg7)) shapeCasts_S40_S1x40 := by
  rw [W3_eq]; after_results; rfl
/-- The two zero rows. -/
theorem z35 : W3 m ρ c (Proc.devRef .tc main_v35) = broadcastInDim S1x64 ![] bcast_S_S1x64 (constant (F := F) S_ .f32 0x00000000#32) := by
  rw [W3_eq]; after_results
theorem z36 : W3 m ρ c (Proc.devRef .tc main_v36) = broadcastInDim S1x64 ![] bcast_S_S1x64 (constant (F := F) S_ .f32 0x00000000#32) := by
  rw [W3_eq]; after_results
/-- The arguments the launches read. -/
theorem a0_3 : W3 m ρ c (Proc.devRef .tc main_arg0) = m ((c : Thread nD τ).loc main_arg0) := by rw [W3_eq]; after_results
theorem a2_3 : W3 m ρ c (Proc.devRef .tc main_arg2) = m ((c : Thread nD τ).loc main_arg2) := by rw [W3_eq]; after_results
theorem a4_3 : W3 m ρ c (Proc.devRef .tc main_arg4) = m ((c : Thread nD τ).loc main_arg4) := by rw [W3_eq]; after_results
theorem a6_3 : W3 m ρ c (Proc.devRef .tc main_arg6) = m ((c : Thread nD τ).loc main_arg6) := by rw [W3_eq]; after_results

/-! ## A buffer nothing writes keeps its contents from boundary to boundary -/

/-- One boundary down, for a buffer the launch or the host stretch in between does not write: past a launch by its
    arrays' names, past a host stretch by walking its operations. -/
macro "past_launch5" : tactic => `(tactic| refine (W13_of_ne _ _ _ _ (by decide)).trans ?_)
macro "past_launch4" : tactic => `(tactic| refine (W11_of_ne _ _ _ _ (by decide)).trans ?_)
macro "past_launch3" : tactic => `(tactic| refine (W9_of_ne _ _ _ _ (by decide)).trans ?_)
macro "past_launch2" : tactic => `(tactic| refine (W8_of_ne _ _ _ _ (by decide)).trans ?_)
macro "past_launch1" : tactic => `(tactic| refine (W6_of_ne _ _ _ _ (by decide)).trans ?_)
macro "past_launch0" : tactic => `(tactic| refine (W4_of_ne _ _ _ _ (by decide)).trans ?_)
macro "past_host5" : tactic => `(tactic| refine Eq.trans (b := W11 _ _ _ _) (by show StableHlo.after hostOps5 _ _ = _; after_results) ?_)
macro "past_host4" : tactic => `(tactic| refine Eq.trans (b := W9 _ _ _ _) (by show StableHlo.after hostOps4 _ _ = _; after_results) ?_)
macro "past_host2" : tactic => `(tactic| refine Eq.trans (b := W6 _ _ _ _) (by show StableHlo.after hostOps2 _ _ = _; after_results) ?_)
macro "past_host1" : tactic => `(tactic| refine Eq.trans (b := W4 _ _ _ _) (by show StableHlo.after hostOps1 _ _ = _; after_results) ?_)

theorem src4 : W4 m ρ c (Proc.devRef .tc main_v3) = W3 m ρ c (Proc.devRef .tc main_v3) := by past_launch0; rfl
theorem src9 : W9 m ρ c (Proc.devRef .tc main_v3) = W3 m ρ c (Proc.devRef .tc main_v3) := by
  past_launch3; past_launch2; past_host2; past_launch1; past_host1; exact src4 m ρ c
theorem dst6 : W6 m ρ c (Proc.devRef .tc main_v7) = W3 m ρ c (Proc.devRef .tc main_v7) := by
  past_launch1; past_host1; past_launch0; rfl
theorem dst11 : W11 m ρ c (Proc.devRef .tc main_v7) = W3 m ρ c (Proc.devRef .tc main_v7) := by
  past_launch4; past_host4; past_launch3; past_launch2; past_host2; exact dst6 m ρ c
theorem nrm5 : W5 m ρ c (Proc.devRef .tc main_v31) = W3 m ρ c (Proc.devRef .tc main_v31) := by
  past_host1; past_launch0; rfl
/-- (The second launch reads the coefficient column through an input window, which leaves its array as entered.) -/
theorem nrm10 : W10 m ρ c (Proc.devRef .tc main_v31) = W3 m ρ c (Proc.devRef .tc main_v31) := by
  past_host4; past_launch3; past_launch2; past_host2
  refine ((W6_arr m ρ c 1).trans (((dat1 (V5 m ρ) c).arrAt_in 1 rfl _).trans (A_eq1 (V5 m ρ) c 1))).trans ?_
  exact nrm5 m ρ c
theorem b1r7 : W7 m ρ c (Proc.devRef .tc main_v32) = W3 m ρ c (Proc.devRef .tc main_v32) := by
  past_host2; past_launch1; past_host1; past_launch0; rfl
theorem b2r12 : W12 m ρ c (Proc.devRef .tc main_v33) = W3 m ρ c (Proc.devRef .tc main_v33) := by
  past_host5; past_launch4; past_host4; past_launch3; past_launch2; past_host2; past_launch1; past_host1; past_launch0; rfl
theorem bhr13 : W13 m ρ c (Proc.devRef .tc main_v34) = W3 m ρ c (Proc.devRef .tc main_v34) := by
  past_launch5; past_host5; past_launch4; past_host4; past_launch3; past_launch2; past_host2; past_launch1; past_host1; past_launch0; rfl
theorem z36_8 : W8 m ρ c (Proc.devRef .tc main_v36) = W3 m ρ c (Proc.devRef .tc main_v36) := by
  past_launch2; past_host2; past_launch1; past_host1; past_launch0; rfl
theorem a4_8 : W8 m ρ c (Proc.devRef .tc main_arg4) = W3 m ρ c (Proc.devRef .tc main_arg4) := by
  past_launch2; past_host2; past_launch1; past_host1; past_launch0; rfl
theorem a6_13 : W13 m ρ c (Proc.devRef .tc main_arg6) = W3 m ρ c (Proc.devRef .tc main_arg6) := by
  past_launch5; past_host5; past_launch4; past_host4; past_launch3; past_launch2; past_host2; past_launch1; past_host1; past_launch0; rfl

/-! ## The host stretches between launches, each as one function of the buffers it reads -/

/-- The sources after the wrap of negative indices, as the column of one-entry index vectors the gather takes. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The filling row gather: the rows of `h` at the wrapped sources, a row whose wrapped source is not between 0 and
    99,999 replaced by the fill word. -/
def takeFill (h : (⟨S100000x64, .f32⟩ : BufTy).Contents (Elt F)) (s : (⟨S1700000, .i32⟩ : BufTy).Contents (Elt F)) :
    (⟨S1700000x64, .f32⟩ : BufTy).Contents (Elt F) :=
  select (broadcastInDim S1700000x64 ![0] bcast_S1700000_S1700000x64_0
      (Host.reduce IntOp.andi
        (andi (cmpi .sge (wrapCol (F := F) s) (broadcastInDim S1700000x1 ![] bcast_S_S1700000x1 (constantI S_ 32 0#32)))
          (cmpi .sle (wrapCol (F := F) s) (broadcastInDim S1700000x1 ![0, 1] bcast_S1x1_S1700000x1_0_1
            (broadcastInDim S1x1 ![1] bcast_S1_S1x1_1 (constantI S1 32 99999#32)))))
        (constantI S_ 1 1#1) reducesTo_S1700000x1_S1700000_d1 h_S_))
    (Host.gather gather_S100000x64_S1700000x1_S1700000x64_1_0_n_n_0_1_164 h (wrapCol (F := F) s))
    (broadcastInDim S1700000x64 ![] bcast_S_S1700000x64 (constant (F := F) S_ .f32 0x7FC00000#32))

/-- The messages added into their target rows, from the zero table. -/
def scatterRows (d : (⟨S1700000, .i32⟩ : BufTy).Contents (Elt F)) (g : (⟨S1700000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d) g

/-- (The gather's operations are printed over typed references, whose transports along a type equation proved by
    computation are identities: they are removed from the operation list before it is folded.) -/
theorem take1 : W5 m ρ c (Proc.devRef .tc main_v38)
    = takeFill (F := F) (W4 m ρ c (Proc.devRef .tc main_v37)) (W4 m ρ c (Proc.devRef .tc main_v3)) := by
  show StableHlo.after hostOps1 (W4 m ρ c) _ = _
  dsimp only [hostOps1, StableHlo.TRef.nullary, StableHlo.TRef.unary, StableHlo.TRef.binary, StableHlo.TRef.ternary, StableHlo.TRef.toBuf, StableHlo.TRef.ofBuf, cast_eq]
  after_results_simp; rfl
theorem take2 : W10 m ρ c (Proc.devRef .tc main_v45)
    = takeFill (F := F) (W9 m ρ c (Proc.devRef .tc main_v44)) (W9 m ρ c (Proc.devRef .tc main_v3)) := by
  show StableHlo.after hostOps4 (W9 m ρ c) _ = _
  dsimp only [hostOps4, StableHlo.TRef.nullary, StableHlo.TRef.unary, StableHlo.TRef.binary, StableHlo.TRef.ternary, StableHlo.TRef.toBuf, StableHlo.TRef.ofBuf, cast_eq]
  after_results_simp; rfl
theorem scat1 : W7 m ρ c (Proc.devRef .tc main_v42)
    = scatterRows (F := F) (W6 m ρ c (Proc.devRef .tc main_v7)) (W6 m ρ c (Proc.devRef .tc main_v39)) := by
  show StableHlo.after hostOps2 (W6 m ρ c) _ = _; after_results_simp; rfl
theorem scat2 : W12 m ρ c (Proc.devRef .tc main_v49)
    = scatterRows (F := F) (W11 m ρ c (Proc.devRef .tc main_v7)) (W11 m ρ c (Proc.devRef .tc main_v46)) := by
  show StableHlo.after hostOps5 (W11 m ρ c) _ = _; after_results_simp; rfl

/-! ## The same host functions under the reference's names -/

section Names
variable (x0 : (⟨S100000x128, .f32⟩ : BufTy).Contents (Elt F)) (e : (⟨S2x1600000, .i32⟩ : BufTy).Contents (Elt F))
  (x2 : (⟨S128x64, .f32⟩ : BufTy).Contents (Elt F)) (x3 : (⟨S64, .f32⟩ : BufTy).Contents (Elt F))
  (x4 : (⟨S64x64, .f32⟩ : BufTy).Contents (Elt F))

/-- The reference computes the sources, the targets and the coefficients once per layer, by the same operations. -/
theorem nrm_again : Cert.ReferenceIdeal.ReadP.val_main_v79 (F := F) e = Cert.ReferenceIdeal.ReadP.val_main_v30 (F := F) e := rfl
theorem wrapCol_eq : wrapCol (F := F) (Cert.ReferenceIdeal.ReadP.val_main_v3 (F := F) e) = Cert.ReferenceIdeal.ReadP.val_main_v37 (F := F) e := rfl
theorem gather1_eq : Host.gather gather_S100000x64_S1700000x1_S1700000x64_1_0_n_n_0_1_164 (Cert.ReferenceIdeal.ReadP.val_main_v31 (F := F) x0 x2) (Cert.ReferenceIdeal.ReadP.val_main_v37 (F := F) e)
    = Cert.ReferenceIdeal.ReadP.val_main_v38 (F := F) x0 e x2 := rfl
theorem gather2_eq : Host.gather gather_S100000x64_S1700000x1_S1700000x64_1_0_n_n_0_1_164 (Cert.ReferenceIdeal.ReadP.val_main_v80 (F := F) x0 e x2 x3 x4) (Cert.ReferenceIdeal.ReadP.val_main_v37 (F := F) e)
    = Cert.ReferenceIdeal.ReadP.val_main_v87 (F := F) x0 e x2 x3 x4 := rfl
theorem scatter1_eq : scatterRows (F := F) (Cert.ReferenceIdeal.ReadP.val_main_v7 (F := F) e) (Cert.ReferenceIdeal.ReadP.val_main_v41 (F := F) x0 e x2)
    = Cert.ReferenceIdeal.ReadP.val_main_v44 (F := F) x0 e x2 := rfl
theorem scatter2_eq : scatterRows (F := F) (Cert.ReferenceIdeal.ReadP.val_main_v7 (F := F) e) (Cert.ReferenceIdeal.ReadP.val_main_v90 (F := F) x0 e x2 x3 x4)
    = Cert.ReferenceIdeal.ReadP.val_main_v93 (F := F) x0 e x2 x3 x4 := rfl
theorem scaled1_eq : mulf (Cert.ReferenceIdeal.ReadP.val_main_v38 (F := F) x0 e x2) (Cert.ReferenceIdeal.ReadP.val_main_v40 (F := F) e) = Cert.ReferenceIdeal.ReadP.val_main_v41 (F := F) x0 e x2 := rfl
theorem scaled2_eq : mulf (Cert.ReferenceIdeal.ReadP.val_main_v87 (F := F) x0 e x2 x3 x4) (Cert.ReferenceIdeal.ReadP.val_main_v89 (F := F) e) = Cert.ReferenceIdeal.ReadP.val_main_v90 (F := F) x0 e x2 x3 x4 := rfl
theorem clamped1_eq : maximumf (addf (Cert.ReferenceIdeal.ReadP.val_main_v44 (F := F) x0 e x2) (Cert.ReferenceIdeal.ReadP.val_main_v46 (F := F) x3)) (Cert.ReferenceIdeal.ReadP.val_main_call1_v0 (F := F))
    = Cert.ReferenceIdeal.ReadP.val_main_v48 (F := F) x0 e x2 x3 := rfl
theorem clamped2_eq (x5 : (⟨S64, .f32⟩ : BufTy).Contents (Elt F)) :
    maximumf (addf (Cert.ReferenceIdeal.ReadP.val_main_v93 (F := F) x0 e x2 x3 x4) (Cert.ReferenceIdeal.ReadP.val_main_v95 (F := F) x5)) (Cert.ReferenceIdeal.ReadP.val_main_call3_v0 (F := F))
    = Cert.ReferenceIdeal.ReadP.val_main_v97 (F := F) x0 e x2 x3 x4 x5 := rfl
end Names

end Cert.KernelIdeal.Host

end
-- ==== Proof.Dense0.lean ====
/-
  A dense launch of the program: it multiplies a table of 100,000 rows by a weight matrix and adds a one-row bias.
  The table is processed in 10 blocks of 10,000 rows; every block reads the weight matrix and the bias row whole.
  Block t of the result is therefore block t of ONE function of the three whole arrays: at (r, f) the sum over k of
  x(r, k) · w(k, f), plus the bias entry (0, f) — the operands are narrowed to bfloat16 first, which changes nothing
  over the extended reals.  The blocks cover every row (row r lies in block r / 10000), so after the launch the
  result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The left factor, the weight matrix and the bias row as the launch finds them. -/
abbrev lhs (c : Dev nD) : S100000x128.Idx → EReal := V c main_arg0
abbrev wts (c : Dev nD) : S128x64.Idx → EReal := V c main_arg2
abbrev bias (c : Dev nD) : S1x64.Idx → EReal := V c main_v35

/-- The left factor's entry (row of `i`, k), the weight's entry (k, column of `i`), the bias entry (0, column of `i`). -/
abbrev lAt (i : S100000x64.Idx) (k : Fin 128) : S100000x128.Idx := fun a => match a with
  | ⟨0, _⟩ => ⟨(i 0).val, (i 0).isLt⟩
  | ⟨1, _⟩ => ⟨k.val, k.isLt⟩
abbrev rAt (i : S100000x64.Idx) (k : Fin 128) : S128x64.Idx := fun a => match a with
  | ⟨0, _⟩ => ⟨k.val, k.isLt⟩
  | ⟨1, _⟩ => ⟨(i 1).val, (i 1).isLt⟩
abbrev bAt (i : S100000x64.Idx) : S1x64.Idx := fun a => match a with
  | ⟨0, _⟩ => ⟨0, Nat.one_pos⟩
  | ⟨1, _⟩ => ⟨(i 1).val, (i 1).isLt⟩

/-- The product plus the bias row: at (r, f) the sum over k of x(r, k) · w(k, f), plus b(0, f). -/
def affine (x : S100000x128.Idx → EReal) (w : S128x64.Idx → EReal) (b : S1x64.Idx → EReal) : S100000x64.Idx → EReal :=
  fun i => (∑ k : Fin 128, x (lAt i k) * w (rAt i k)) + b (bAt i)

/-! The operand indices of the block's product at a contraction position, axis by axis. -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block's product into the zero accumulator, at an entry: the change of float format is the identity on the
    extended reals, so it is the plain sum over the contracted coordinate. -/
theorem prod_apply (x0 : S10000x128.Idx → EReal) (x1 : S128x64.Idx → EReal) (p : Fin 10000) (q : Fin 64) :
    matmul (F := Ideal) dot_S10000x128_S128x64_S10000x64_1_0_0_1_n_n none (truncf .bf16 x0 bitsLt_bf16_f32) (truncf .bf16 x1 bitsLt_bf16_f32)
      (constant S10000x64 .f32 0x00000000#32) (ix2 p q) = ∑ k : Fin 128, x0 (ix2 p k) * x1 (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- One block's result, entry by entry. -/
theorem pay_apply (x0 : S10000x128.Idx → EReal) (x1 : S128x64.Idx → EReal) (x2 : S1x64.Idx → EReal) (p : Fin 10000) (q : Fin 64) :
    k0_pay1 (F := Ideal) x0 x1 x2 (ix2 p q) = (∑ k : Fin 128, x0 (ix2 p k) * x1 (ix2 k q)) + x2 (ix2 (0 : Fin 1) q) := by
  unfold k0_pay1
  simp only [shapeCast_self]
  rw [addf_apply, prod_apply]
  refine congrArg ((∑ k : Fin 128, x0 (ix2 p k) * x1 (ix2 k q)) + ·) ?_
  refine broadcastTo_apply x2 _ (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if (64 : ℕ) = 1 then 0 else q.val
    rw [if_neg (by decide)]

theorem hz : (![0, 0] : Fin 2 → Nat) = fun _ => 0 := funext fun a => by fin_cases a <;> rfl

/-- The four index maps, decided over the 10 points: the left factor's and the result's blocks move along the rows
    with the point, the weight matrix and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the product plus bias of the arrays as the launch finds them. -/
theorem flushed_eq (c : Dev nD) (t : Fin cfg0.N) :
    (dat0 V c).flushed 3 t = ((cfg0.win 3).blk t).view.read (Elt Ideal) (affine (lhs V c) (wts V c) (bias V c)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  refine (pay_apply (iblk0 V c 0 t) (iblk0 V c 1 t) (iblk0 V c 2 t) p q).trans ?_
  show (∑ k : Fin 128, lhs V c (((cfg0.win 0).blk t).view.emb (ix2 p k)) * wts V c (((cfg0.win 1).blk t).view.emb (ix2 k q)))
      + bias V c (((cfg0.win 2).blk t).view.emb (ix2 (0 : Fin 1) q))
    = (∑ k : Fin 128, lhs V c (lAt (((cfg0.win 3).blk t).view.emb (ix2 p q)) k) * wts V c (rAt (((cfg0.win 3).blk t).view.emb (ix2 p q)) k))
      + bias V c (bAt (((cfg0.win 3).blk t).view.emb (ix2 p q)))
  have h0 : ∀ k : Fin 128, ((cfg0.win 0).blk t).view.emb (ix2 p k) = lAt (((cfg0.win 3).blk t).view.emb (ix2 p q)) k := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, ((cfg0.win 1).blk t).view.emb (ix2 k q) = rAt (((cfg0.win 3).blk t).view.emb (ix2 p q)) k := fun k => by
    funext a; apply Fin.ext
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 (0 : Fin 1) q) = bAt (((cfg0.win 3).blk t).view.emb (ix2 p q)) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [h2]
  exact congrArg (· + _) (Finset.sum_congr rfl fun k _ => by rw [h0 k, h1 k])

/-- An index of the result array lies in point `t`'s block iff each coordinate lies in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v37).slice (win0_3.rect t)).set ↔ _
  rw [View.set_slice_whole, Rect.mem_set_unit]
  exact Iff.rfl

/-- Every row lies in the block of the point `row / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5, e6, e7⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the launch the result array is the product plus the bias row. -/
theorem final (c : Dev nD) : (dat0 V c).arrAt 3 cfg0.N = affine (lhs V c) (wts V c) (bias V c) :=
  (dat0 V c).arrAt_eq_of_cover 3 (affine (lhs V c) (wts V c) (bias V c)) (fun t _ => flushed_eq V c t) cover

end Cert.KernelIdeal.Dense0

end
-- ==== Proof.Dense3.lean ====
/-
  A dense launch of the program: it multiplies a table of 100,000 rows by a weight matrix and adds a one-row bias.
  The table is processed in 10 blocks of 10,000 rows; every block reads the weight matrix and the bias row whole.
  Block t of the result is therefore block t of ONE function of the three whole arrays: at (r, f) the sum over k of
  x(r, k) · w(k, f), plus the bias entry (0, f) — the operands are narrowed to bfloat16 first, which changes nothing
  over the extended reals.  The blocks cover every row (row r lies in block r / 10000), so after the launch the
  result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The left factor, the weight matrix and the bias row as the launch finds them. -/
abbrev lhs (c : Dev nD) : S100000x64.Idx → EReal := V c main_v43
abbrev wts (c : Dev nD) : S64x64.Idx → EReal := V c main_arg4
abbrev bias (c : Dev nD) : S1x64.Idx → EReal := V c main_v36

/-- The left factor's entry (row of `i`, k), the weight's entry (k, column of `i`), the bias entry (0, column of `i`). -/
abbrev lAt (i : S100000x64.Idx) (k : Fin 64) : S100000x64.Idx := fun a => match a with
  | ⟨0, _⟩ => ⟨(i 0).val, (i 0).isLt⟩
  | ⟨1, _⟩ => ⟨k.val, k.isLt⟩
abbrev rAt (i : S100000x64.Idx) (k : Fin 64) : S64x64.Idx := fun a => match a with
  | ⟨0, _⟩ => ⟨k.val, k.isLt⟩
  | ⟨1, _⟩ => ⟨(i 1).val, (i 1).isLt⟩
abbrev bAt (i : S100000x64.Idx) : S1x64.Idx := fun a => match a with
  | ⟨0, _⟩ => ⟨0, Nat.one_pos⟩
  | ⟨1, _⟩ => ⟨(i 1).val, (i 1).isLt⟩

/-- The product plus the bias row: at (r, f) the sum over k of x(r, k) · w(k, f), plus b(0, f). -/
def affine (x : S100000x64.Idx → EReal) (w : S64x64.Idx → EReal) (b : S1x64.Idx → EReal) : S100000x64.Idx → EReal :=
  fun i => (∑ k : Fin 64, x (lAt i k) * w (rAt i k)) + b (bAt i)

/-! The operand indices of the block's product at a contraction position, axis by axis. -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's product into the zero accumulator, at an entry: the change of float format is the identity on the
    extended reals, so it is the plain sum over the contracted coordinate. -/
theorem prod_apply (x0 : S10000x64.Idx → EReal) (x1 : S64x64.Idx → EReal) (p : Fin 10000) (q : Fin 64) :
    matmul (F := Ideal) dot_S10000x64_S64x64_S10000x64_1_0_0_1_n_n none (truncf .bf16 x0 bitsLt_bf16_f32) (truncf .bf16 x1 bitsLt_bf16_f32)
      (constant S10000x64 .f32 0x00000000#32) (ix2 p q) = ∑ k : Fin 64, x0 (ix2 p k) * x1 (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-- One block's result, entry by entry. -/
theorem pay_apply (x0 : S10000x64.Idx → EReal) (x1 : S64x64.Idx → EReal) (x2 : S1x64.Idx → EReal) (p : Fin 10000) (q : Fin 64) :
    k3_pay1 (F := Ideal) x0 x1 x2 (ix2 p q) = (∑ k : Fin 64, x0 (ix2 p k) * x1 (ix2 k q)) + x2 (ix2 (0 : Fin 1) q) := by
  unfold k3_pay1
  simp only [shapeCast_self]
  rw [addf_apply, prod_apply]
  refine congrArg ((∑ k : Fin 64, x0 (ix2 p k) * x1 (ix2 k q)) + ·) ?_
  refine broadcastTo_apply x2 _ (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if (64 : ℕ) = 1 then 0 else q.val
    rw [if_neg (by decide)]

theorem hz : (![0, 0] : Fin 2 → Nat) = fun _ => 0 := funext fun a => by fin_cases a <;> rfl

/-- The four index maps, decided over the 10 points: the left factor's and the result's blocks move along the rows
    with the point, the weight matrix and the bias row stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the product plus bias of the arrays as the launch finds them. -/
theorem flushed_eq (c : Dev nD) (t : Fin cfg3.N) :
    (dat3 V c).flushed 3 t = ((cfg3.win 3).blk t).view.read (Elt Ideal) (affine (lhs V c) (wts V c) (bias V c)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  refine (pay_apply (iblk3 V c 0 t) (iblk3 V c 1 t) (iblk3 V c 2 t) p q).trans ?_
  show (∑ k : Fin 64, lhs V c (((cfg3.win 0).blk t).view.emb (ix2 p k)) * wts V c (((cfg3.win 1).blk t).view.emb (ix2 k q)))
      + bias V c (((cfg3.win 2).blk t).view.emb (ix2 (0 : Fin 1) q))
    = (∑ k : Fin 64, lhs V c (lAt (((cfg3.win 3).blk t).view.emb (ix2 p q)) k) * wts V c (rAt (((cfg3.win 3).blk t).view.emb (ix2 p q)) k))
      + bias V c (bAt (((cfg3.win 3).blk t).view.emb (ix2 p q)))
  have h0 : ∀ k : Fin 64, ((cfg3.win 0).blk t).view.emb (ix2 p k) = lAt (((cfg3.win 3).blk t).view.emb (ix2 p q)) k := fun k => by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  have h1 : ∀ k : Fin 64, ((cfg3.win 1).blk t).view.emb (ix2 k q) = rAt (((cfg3.win 3).blk t).view.emb (ix2 p q)) k := fun k => by
    funext a; apply Fin.ext
    match a with
    | ⟨0, _⟩ => show win3_1.index t (0 : Fin 2) * 64 + 1 * k.val = k.val; omega
    | ⟨1, _⟩ => show win3_1.index t (1 : Fin 2) * 64 + 1 * q.val = win3_3.index t (1 : Fin 2) * 64 + 1 * q.val; omega
  have h2 : ((cfg3.win 2).blk t).view.emb (ix2 (0 : Fin 1) q) = bAt (((cfg3.win 3).blk t).view.emb (ix2 p q)) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  rw [h2]
  exact congrArg (· + _) (Finset.sum_congr rfl fun k _ => by rw [h0 k, h1 k])

/-- An index of the result array lies in point `t`'s block iff each coordinate lies in the block's range. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v44).slice (win3_3.rect t)).set ↔ _
  rw [View.set_slice_whole, Rect.mem_set_unit]
  exact Iff.rfl

/-- Every row lies in the block of the point `row / 10000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5, e6, e7⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After the launch the result array is the product plus the bias row. -/
theorem final (c : Dev nD) : (dat3 V c).arrAt 3 cfg3.N = affine (lhs V c) (wts V c) (bias V c) :=
  (dat3 V c).arrAt_eq_of_cover 3 (affine (lhs V c) (wts V c) (bias V c)) (fun t _ => flushed_eq V c t) cover

end Cert.KernelIdeal.Dense3

end
-- ==== Proof.Dense6.lean ====
/-
  A dense launch of the program: it multiplies a table of 100,000 rows by a weight matrix and adds a one-row bias.
  The table is processed in 10 blocks of 10,000 rows; every block reads the weight matrix and the bias row whole.
  Block t of the result is therefore block t of ONE function of the three whole arrays: at (r, f) the sum over k of
  x(r, k) · w(k, f), plus the bias entry (0, f) — the operands are narrowed to bfloat16 first, which changes nothing
  over the extended reals.  The blocks cover every row (row r lies in block r / 10000), so after the launch the
  result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The left factor, the weight matrix and the bias row as the launch finds them. -/
abbrev lhs (c : Dev nD) : S100000x64.Idx → EReal := V c main_v50
abbrev wts (c : Dev nD) : S64x40.Idx → EReal := V c main_arg6
abbrev bias (c : Dev nD) : S1x40.Idx → EReal := V c main_v34

/-- The left factor's entry (row of `i`, k), the weight's entry (k, column of `i`), the bias entry (0, column of `i`). -/
abbrev lAt (i : S100000x40.Idx) (k : Fin 64) : S100000x64.Idx := fun a => match a with
  | ⟨0, _⟩ => ⟨(i 0).val, (i 0).isLt⟩
  | ⟨1, _⟩ => ⟨k.val, k.isLt⟩
abbrev rAt (i : S100000x40.Idx) (k : Fin 64) : S64x40.Idx := fun a => match a with
  | ⟨0, _⟩ => ⟨k.val, k.isLt⟩
  | ⟨1, _⟩ => ⟨(i 1).val, (i 1).isLt⟩
abbrev bAt (i : S100000x40.Idx) : S1x40.Idx := fun a => match a with
  | ⟨0, _⟩ => ⟨0, Nat.one_pos⟩
  | ⟨1, _⟩ => ⟨(i 1).val, (i 1).isLt⟩

/-- The product plus the bias row: at (r, f) the sum over k of x(r, k) · w(k, f), plus b(0, f). -/
def affine (x : S100000x64.Idx → EReal) (w : S64x40.Idx → EReal) (b : S1x40.Idx → EReal) : S100000x40.Idx → EReal :=
  fun i => (∑ k : Fin 64, x (lAt i k) * w (rAt i k)) + b (bAt i)

/-! The operand indices of the block's product at a contraction position, axis by axis. -/

theorem lhs_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The block's product into the zero accumulator, at an entry: the change of float format is the identity on the
    extended reals, so it is the plain sum over the contracted coordinate. -/
theorem prod_apply (x0 : S10000x64.Idx → EReal) (x1 : S64x40.Idx → EReal) (p : Fin 10000) (q : Fin 40) :
    matmul (F := Ideal) dot_S10000x64_S64x40_S10000x40_1_0_0_1_n_n none (truncf .bf16 x0 bitsLt_bf16_f32) (truncf .bf16 x1 bitsLt_bf16_f32)
      (constant S10000x40 .f32 0x00000000#32) (ix2 p q) = ∑ k : Fin 64, x0 (ix2 p k) * x1 (ix2 k q) := by
  simp only [matmul]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-- One block's result, entry by entry. -/
theorem pay_apply (x0 : S10000x64.Idx → EReal) (x1 : S64x40.Idx → EReal) (x2 : S1x40.Idx → EReal) (p : Fin 10000) (q : Fin 40) :
    k6_pay1 (F := Ideal) x0 x1 x2 (ix2 p q) = (∑ k : Fin 64, x0 (ix2 p k) * x1 (ix2 k q)) + x2 (ix2 (0 : Fin 1) q) := by
  unfold k6_pay1
  simp only [shapeCast_self]
  rw [addf_apply, prod_apply]
  refine congrArg ((∑ k : Fin 64, x0 (ix2 p k) * x1 (ix2 k q)) + ·) ?_
  refine broadcastTo_apply x2 _ (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if (40 : ℕ) = 1 then 0 else q.val
    rw [if_neg (by decide)]

theorem hz : (![0, 0] : Fin 2 → Nat) = fun _ => 0 := funext fun a => by fin_cases a <;> rfl

/-- The four index maps, decided over the 10 points: the left factor's and the result's blocks move along the rows
    with the point, the weight matrix and the bias row stay at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the product plus bias of the arrays as the launch finds them. -/
theorem flushed_eq (c : Dev nD) (t : Fin cfg6.N) :
    (dat6 V c).flushed 3 t = ((cfg6.win 3).blk t).view.read (Elt Ideal) (affine (lhs V c) (wts V c) (bias V c)) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x40) hz, View.ld_unit_zero (S := S1x40) hz]
  obtain ⟨e0, e1, e2, e3, e4, e5, e6, e7⟩ := idx_facts t
  funext j
  obtain ⟨p, q, rfl⟩ : ∃ (p : Fin 10000) (q : Fin 40), j = ix2 p q := ⟨j 0, j 1, eq_ix2 j⟩
  refine (pay_apply (iblk6 V c 0 t) (iblk6 V c 1 t) (iblk6 V c 2 t) p q).trans ?_
  show (∑ k : Fin 64, lhs V c (((cfg6.win 0).blk t).view.emb (ix2 p k)) * wts V c (((cfg6.win 1).blk t).view.emb (ix2 k q)))
      + bias V c (((cfg6.win 2).blk t).view.emb (ix2 (0 : Fin 1) q))
    = (∑ k : Fin 64, lhs V c (lAt (((cfg6.win 3).blk t).view.emb (ix2 p q)) k) * wts V c (rAt (((cfg6.win 3).blk t).view.emb (ix2 p q)) k))
      + bias V c (bAt (((cfg6.win 3).blk t).view.emb (ix2 p q)))
  have h0 : ∀ k : Fin 64, ((cfg6.win 0).blk t).view.emb (ix2 p k) = lAt (((cfg6.win 3).blk t).view.emb (ix2 p q)) k := fun k => by
    funext a; apply Fin.ext
    match a with
    | ⟨0, _⟩ => show win6_0.index t (0 : Fin 2) * 10000 + 1 * p.val = win6_3.index t (0 : Fin 2) * 10000 + 1 * p.val; omega
    | ⟨1, _⟩ => show win6_0.index t (1 : Fin 2) * 64 + 1 * k.val = k.val; omega
  have h1 : ∀ k : Fin 64, ((cfg6.win 1).blk t).view.emb (ix2 k q) = rAt (((cfg6.win 3).blk t).view.emb (ix2 p q)) k := fun k => by
    funext a; apply Fin.ext
    match a with
    | ⟨0, _⟩ => show win6_1.index t (0 : Fin 2) * 64 + 1 * k.val = k.val; omega
    | ⟨1, _⟩ => show win6_1.index t (1 : Fin 2) * 40 + 1 * q.val = win6_3.index t (1 : Fin 2) * 40 + 1 * q.val; omega
  have h2 : ((cfg6.win 2).blk t).view.emb (ix2 (0 : Fin 1) q) = bAt (((cfg6.win 3).blk t).view.emb (ix2 p q)) := by
    funext a; apply Fin.ext
    match a with
    | ⟨0, _⟩ => show win6_2.index t (0 : Fin 2) * 1 + 1 * 0 = 0; omega
    | ⟨1, _⟩ => show win6_2.index t (1 : Fin 2) * 40 + 1 * q.val = win6_3.index t (1 : Fin 2) * 40 + 1 * q.val; omega
  rw [h2]
  exact congrArg (· + _) (Finset.sum_congr rfl fun k _ => by rw [h0 k, h1 k])

/-- An index of the result array lies in point `t`'s block iff each coordinate lies in the block's range. -/
theorem mem_blk (t : Fin cfg6.N) (i : S100000x40.Idx) :
    i ∈ ((cfg6.win 3).blk t).view.set ↔ ∀ a : Fin 2, win6_3.index t a * S10000x40.size a ≤ (i a).val ∧ (i a).val < win6_3.index t a * S10000x40.size a + S10000x40.size a := by
  show i ∈ ((View.whole main_v51).slice (win6_3.rect t)).set ↔ _
  rw [View.set_slice_whole, Rect.mem_set_unit]
  exact Iff.rfl

/-- Every row lies in the block of the point `row / 10000`. -/
theorem cover (i : S100000x40.Idx) : ∃ t : Fin cfg6.N, (cfg6.win 3).flush t = true ∧ i ∈ ((cfg6.win 3).blk t).view.set := by
  have hi0 : (i 0).val < 100000 := (i 0).isLt
  have hi1 : (i 1).val < 40 := (i 1).isLt
  have hN : cfg6.N = 10 := N_6
  let t : Fin cfg6.N := ⟨(i 0).val / 10000, by rw [hN]; omega⟩
  obtain ⟨e0, e1, e2, e3, e4, e5, e6, e7⟩ := idx_facts t
  have ht : t.val = (i 0).val / 10000 := rfl
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 40 ≤ (i 1).val ∧ (i 1).val < win6_3.index t (1 : Fin 2) * 40 + 40; omega

/-- After the launch the result array is the product plus the bias row. -/
theorem final (c : Dev nD) : (dat6 V c).arrAt 3 cfg6.N = affine (lhs V c) (wts V c) (bias V c) :=
  (dat6 V c).arrAt_eq_of_cover 3 (affine (lhs V c) (wts V c) (bias V c)) (fun t _ => flushed_eq V c t) cover

end Cert.KernelIdeal.Dense6

end
-- ==== Proof.Scale1.lean ====
/-
  A scaling launch of the program: it multiplies every row of a gathered message table by that row's edge coefficient.
  The table has 1,700,000 rows of 64 entries and is processed in 250 blocks of 6,800 rows; the coefficients are a
  column of 1,700,000 entries cut into the same 250 blocks.  Block t of the result is therefore block t of ONE function
  of the two whole arrays: the entry (r, f) of the table times the entry (r, 0) of the column.  The blocks cover every
  row (row r lies in block r / 6800), so after the launch the result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The message table and the coefficient column as the launch finds them. -/
abbrev tbl (c : Dev nD) : S1700000x64.Idx → EReal := V c main_v38
abbrev col (c : Dev nD) : S1700000x1.Idx → EReal := V c main_v31

/-- The column entry that scales row `i 0`. -/
abbrev rowOf (i : S1700000x64.Idx) : S1700000x1.Idx := fun a => match a with
  | ⟨0, _⟩ => ⟨(i 0).val, (i 0).isLt⟩
  | ⟨1, _⟩ => ⟨0, Nat.one_pos⟩

/-- The scaled table: entry (r, f) of the table times entry (r, 0) of the column. -/
def scaled (g : S1700000x64.Idx → EReal) (n : S1700000x1.Idx → EReal) : S1700000x64.Idx → EReal :=
  fun i => g i * n (rowOf i)

/-- One block's product, entry by entry: the block of the table times the block of the column broadcast along the row. -/
theorem pay_apply (x0 : S6800x64.Idx → EReal) (x1 : S6800x1.Idx → EReal) (p : Fin 6800) (q : Fin 64) :
    k1_pay1 (F := Ideal) x0 x1 (ix2 p q) = x0 (ix2 p q) * x1 (ix2 p (0 : Fin 1)) := by
  unfold k1_pay1
  rw [mulf_apply, shapeCast_self, shapeCast_self]
  refine congrArg (x0 (ix2 p q) * ·) ?_
  refine broadcastTo_apply x1 _ (ix2 p q) (ix2 p (0 : Fin 1)) fun ax => ?_
  match ax with
  | ⟨0, _⟩ =>
    show p.val = if (6800 : ℕ) = 1 then 0 else p.val
    rw [if_neg (by decide)]
  | ⟨1, _⟩ =>
    show (0 : ℕ) = if (1 : ℕ) = 1 then 0 else q.val
    rw [if_pos rfl]

theorem hz : (![0, 0] : Fin 2 → Nat) = fun _ => 0 := funext fun a => by fin_cases a <;> rfl

/-- The three index maps, decided over the 250 points: all move along the rows with the point and stay at column
    block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled table of the arrays as the launch finds them. -/
theorem flushed_eq (c : Dev nD) (t : Fin cfg1.N) :
    (dat1 V c).flushed 2 t = ((cfg1.win 2).blk t).view.read (Elt Ideal) (scaled (tbl V c) (col V c)) := by
  show (cfg1.win 2).cut (grid1.coords t) ((dat1 V c).after 2 t) = _
  rw [after1_2]
  unfold out1_2
  rw [View.canon_unit_zero hz]
  simp only [View.ld_unit_zero (S := S6800x64) hz, View.ld_unit_zero (S := S6800x1) hz]
  obtain ⟨e0, e1, e2, e3, e4, e5⟩ := idx_facts t
  funext j
  obtain ⟨p, q, rfl⟩ : ∃ (p : Fin 6800) (q : Fin 64), j = ix2 p q := ⟨j 0, j 1, eq_ix2 j⟩
  refine (pay_apply (iblk1 V c 0 t) (iblk1 V c 1 t) p q).trans ?_
  show tbl V c (((cfg1.win 0).blk t).view.emb (ix2 p q)) * col V c (((cfg1.win 1).blk t).view.emb (ix2 p (0 : Fin 1)))
    = tbl V c (((cfg1.win 2).blk t).view.emb (ix2 p q)) * col V c (rowOf (((cfg1.win 2).blk t).view.emb (ix2 p q)))
  have h0 : ((cfg1.win 0).blk t).view.emb (ix2 p q) = ((cfg1.win 2).blk t).view.emb (ix2 p q) := by
    funext a; apply Fin.ext
    match a with
    | ⟨0, _⟩ => show win1_0.index t (0 : Fin 2) * 6800 + 1 * p.val = win1_2.index t (0 : Fin 2) * 6800 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = rowOf (((cfg1.win 2).blk t).view.emb (ix2 p q)) := by
    funext a; apply Fin.ext
    match a with
    | ⟨0, _⟩ => show win1_1.index t (0 : Fin 2) * 6800 + 1 * p.val = win1_2.index t (0 : Fin 2) * 6800 + 1 * p.val; omega
    | ⟨1, _⟩ => show win1_1.index t (1 : Fin 2) * 1 + 1 * 0 = 0; omega
  rw [h0, h1]

/-- An index of the result array lies in point `t`'s block iff each coordinate lies in the block's range. -/
theorem mem_blk (t : Fin cfg1.N) (i : S1700000x64.Idx) :
    i ∈ ((cfg1.win 2).blk t).view.set ↔ ∀ a : Fin 2, win1_2.index t a * S6800x64.size a ≤ (i a).val ∧ (i a).val < win1_2.index t a * S6800x64.size a + S6800x64.size a := by
  show i ∈ ((View.whole main_v39).slice (win1_2.rect t)).set ↔ _
  rw [View.set_slice_whole, Rect.mem_set_unit]
  exact Iff.rfl

/-- Every row lies in the block of the point `row / 6800`. -/
theorem cover (i : S1700000x64.Idx) : ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 250 := N_1
  let t : Fin cfg1.N := ⟨(i 0).val / 6800, by rw [hN]; omega⟩
  obtain ⟨e0, e1, e2, e3, e4, e5⟩ := idx_facts t
  have ht : t.val = (i 0).val / 6800 := rfl
  refine ⟨t, flush1_2 t, ?_⟩
  rw [mem_blk]
  intro a
  match a with
  | ⟨0, _⟩ => show win1_2.index t (0 : Fin 2) * 6800 ≤ (i 0).val ∧ (i 0).val < win1_2.index t (0 : Fin 2) * 6800 + 6800; omega
  | ⟨1, _⟩ => show win1_2.index t (1 : Fin 2) * 64 ≤ (i 1).val ∧ (i 1).val < win1_2.index t (1 : Fin 2) * 64 + 64; omega

/-- After the launch the result array is the scaled table. -/
theorem final (c : Dev nD) : (dat1 V c).arrAt 2 cfg1.N = scaled (tbl V c) (col V c) :=
  (dat1 V c).arrAt_eq_of_cover 2 (scaled (tbl V c) (col V c)) (fun t _ => flushed_eq V c t) cover

end Cert.KernelIdeal.Scale1

end
-- ==== Proof.Scale4.lean ====
/-
  A scaling launch of the program: it multiplies every row of a gathered message table by that row's edge coefficient.
  The table has 1,700,000 rows of 64 entries and is processed in 250 blocks of 6,800 rows; the coefficients are a
  column of 1,700,000 entries cut into the same 250 blocks.  Block t of the result is therefore block t of ONE function
  of the two whole arrays: the entry (r, f) of the table times the entry (r, 0) of the column.  The blocks cover every
  row (row r lies in block r / 6800), so after the launch the result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The message table and the coefficient column as the launch finds them. -/
abbrev tbl (c : Dev nD) : S1700000x64.Idx → EReal := V c main_v45
abbrev col (c : Dev nD) : S1700000x1.Idx → EReal := V c main_v31

/-- The column entry that scales row `i 0`. -/
abbrev rowOf (i : S1700000x64.Idx) : S1700000x1.Idx := fun a => match a with
  | ⟨0, _⟩ => ⟨(i 0).val, (i 0).isLt⟩
  | ⟨1, _⟩ => ⟨0, Nat.one_pos⟩

/-- The scaled table: entry (r, f) of the table times entry (r, 0) of the column. -/
def scaled (g : S1700000x64.Idx → EReal) (n : S1700000x1.Idx → EReal) : S1700000x64.Idx → EReal :=
  fun i => g i * n (rowOf i)

/-- One block's product, entry by entry: the block of the table times the block of the column broadcast along the row. -/
theorem pay_apply (x0 : S6800x64.Idx → EReal) (x1 : S6800x1.Idx → EReal) (p : Fin 6800) (q : Fin 64) :
    k4_pay1 (F := Ideal) x0 x1 (ix2 p q) = x0 (ix2 p q) * x1 (ix2 p (0 : Fin 1)) := by
  unfold k4_pay1
  rw [mulf_apply, shapeCast_self, shapeCast_self]
  refine congrArg (x0 (ix2 p q) * ·) ?_
  refine broadcastTo_apply x1 _ (ix2 p q) (ix2 p (0 : Fin 1)) fun ax => ?_
  match ax with
  | ⟨0, _⟩ =>
    show p.val = if (6800 : ℕ) = 1 then 0 else p.val
    rw [if_neg (by decide)]
  | ⟨1, _⟩ =>
    show (0 : ℕ) = if (1 : ℕ) = 1 then 0 else q.val
    rw [if_pos rfl]

theorem hz : (![0, 0] : Fin 2 → Nat) = fun _ => 0 := funext fun a => by fin_cases a <;> rfl

/-- The three index maps, decided over the 250 points: all move along the rows with the point and stay at column
    block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled table of the arrays as the launch finds them. -/
theorem flushed_eq (c : Dev nD) (t : Fin cfg4.N) :
    (dat4 V c).flushed 2 t = ((cfg4.win 2).blk t).view.read (Elt Ideal) (scaled (tbl V c) (col V c)) := by
  show (cfg4.win 2).cut (grid4.coords t) ((dat4 V c).after 2 t) = _
  rw [after4_2]
  unfold out4_2
  rw [View.canon_unit_zero hz]
  simp only [View.ld_unit_zero (S := S6800x64) hz, View.ld_unit_zero (S := S6800x1) hz]
  obtain ⟨e0, e1, e2, e3, e4, e5⟩ := idx_facts t
  funext j
  obtain ⟨p, q, rfl⟩ : ∃ (p : Fin 6800) (q : Fin 64), j = ix2 p q := ⟨j 0, j 1, eq_ix2 j⟩
  refine (pay_apply (iblk4 V c 0 t) (iblk4 V c 1 t) p q).trans ?_
  show tbl V c (((cfg4.win 0).blk t).view.emb (ix2 p q)) * col V c (((cfg4.win 1).blk t).view.emb (ix2 p (0 : Fin 1)))
    = tbl V c (((cfg4.win 2).blk t).view.emb (ix2 p q)) * col V c (rowOf (((cfg4.win 2).blk t).view.emb (ix2 p q)))
  have h0 : ((cfg4.win 0).blk t).view.emb (ix2 p q) = ((cfg4.win 2).blk t).view.emb (ix2 p q) := by
    funext a; apply Fin.ext
    match a with
    | ⟨0, _⟩ => show win4_0.index t (0 : Fin 2) * 6800 + 1 * p.val = win4_2.index t (0 : Fin 2) * 6800 + 1 * p.val; omega
    | ⟨1, _⟩ => show win4_0.index t (1 : Fin 2) * 64 + 1 * q.val = win4_2.index t (1 : Fin 2) * 64 + 1 * q.val; omega
  have h1 : ((cfg4.win 1).blk t).view.emb (ix2 p (0 : Fin 1)) = rowOf (((cfg4.win 2).blk t).view.emb (ix2 p q)) := by
    funext a; apply Fin.ext
    match a with
    | ⟨0, _⟩ => show win4_1.index t (0 : Fin 2) * 6800 + 1 * p.val = win4_2.index t (0 : Fin 2) * 6800 + 1 * p.val; omega
    | ⟨1, _⟩ => show win4_1.index t (1 : Fin 2) * 1 + 1 * 0 = 0; omega
  rw [h0, h1]

/-- An index of the result array lies in point `t`'s block iff each coordinate lies in the block's range. -/
theorem mem_blk (t : Fin cfg4.N) (i : S1700000x64.Idx) :
    i ∈ ((cfg4.win 2).blk t).view.set ↔ ∀ a : Fin 2, win4_2.index t a * S6800x64.size a ≤ (i a).val ∧ (i a).val < win4_2.index t a * S6800x64.size a + S6800x64.size a := by
  show i ∈ ((View.whole main_v46).slice (win4_2.rect t)).set ↔ _
  rw [View.set_slice_whole, Rect.mem_set_unit]
  exact Iff.rfl

/-- Every row lies in the block of the point `row / 6800`. -/
theorem cover (i : S1700000x64.Idx) : ∃ t : Fin cfg4.N, (cfg4.win 2).flush t = true ∧ i ∈ ((cfg4.win 2).blk t).view.set := by
  have hi0 : (i 0).val < 1700000 := (i 0).isLt
  have hi1 : (i 1).val < 64 := (i 1).isLt
  have hN : cfg4.N = 250 := N_4
  let t : Fin cfg4.N := ⟨(i 0).val / 6800, by rw [hN]; omega⟩
  obtain ⟨e0, e1, e2, e3, e4, e5⟩ := idx_facts t
  have ht : t.val = (i 0).val / 6800 := rfl
  refine ⟨t, flush4_2 t, ?_⟩
  rw [mem_blk]
  intro a
  match a with
  | ⟨0, _⟩ => show win4_2.index t (0 : Fin 2) * 6800 ≤ (i 0).val ∧ (i 0).val < win4_2.index t (0 : Fin 2) * 6800 + 6800; omega
  | ⟨1, _⟩ => show win4_2.index t (1 : Fin 2) * 64 ≤ (i 1).val ∧ (i 1).val < win4_2.index t (1 : Fin 2) * 64 + 64; omega

/-- After the launch the result array is the scaled table. -/
theorem final (c : Dev nD) : (dat4 V c).arrAt 2 cfg4.N = scaled (tbl V c) (col V c) :=
  (dat4 V c).arrAt_eq_of_cover 2 (scaled (tbl V c) (col V c)) (fun t _ => flushed_eq V c t) cover

end Cert.KernelIdeal.Scale4

end
-- ==== Proof.Clamp2.lean ====
/-
  A bias-and-clamp launch of the program: it adds a bias row to every row of an aggregated table and clamps the sum
  below at zero.  The table has 100,000 rows of 64 entries and is processed in 10 blocks of 10,000 rows; the bias is
  one row of 64 entries that every block reads whole.  Block t of the result is therefore block t of ONE function of
  the two whole arrays: at (r, f) the larger of zero and the table's entry (r, f) plus the bias entry (0, f).  The
  blocks cover every row (row r lies in block r / 10000), so after the launch the result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Clamp2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The aggregated table and the bias row as the launch finds them. -/
abbrev agg (c : Dev nD) : S100000x64.Idx → EReal := V c main_v42
abbrev bias (c : Dev nD) : S1x64.Idx → EReal := V c main_v32

/-- The bias entry added in column `i 1`. -/
abbrev colOf (i : S100000x64.Idx) : S1x64.Idx := fun a => match a with
  | ⟨0, _⟩ => ⟨0, Nat.one_pos⟩
  | ⟨1, _⟩ => ⟨(i 1).val, (i 1).isLt⟩

/-- The clamped table: the larger of the zero the body splats and the entry (r, f) plus the bias entry (0, f). -/
def clamped (a : S100000x64.Idx → EReal) (b : S1x64.Idx → EReal) : S100000x64.Idx → EReal :=
  fun i => max (a i + b (colOf i)) (Scalar.ofBits (F := Ideal) .f32 0x00000000#32)

/-- One block's result, entry by entry. -/
theorem pay_apply (x0 : S10000x64.Idx → EReal) (x1 : S1x64.Idx → EReal) (p : Fin 10000) (q : Fin 64) :
    k2_pay1 (F := Ideal) x0 x1 (ix2 p q)
      = max (x0 (ix2 p q) + x1 (ix2 (0 : Fin 1) q)) (Scalar.ofBits (F := Ideal) .f32 0x00000000#32) := by
  unfold k2_pay1
  rw [maximumf_apply, addf_apply, shapeCast_self, shapeCast_self, broadcast_apply]
  refine congrArg (fun z => max (x0 (ix2 p q) + z) _) ?_
  refine broadcastTo_apply x1 _ (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if (64 : ℕ) = 1 then 0 else q.val
    rw [if_neg (by decide)]

theorem hz : (![0, 0] : Fin 2 → Nat) = fun _ => 0 := funext fun a => by fin_cases a <;> rfl

/-- The three index maps, decided over the 10 points: the table's and the result's blocks move along the rows with
    the point, the bias row stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the clamped table of the arrays as the launch finds them. -/
theorem flushed_eq (c : Dev nD) (t : Fin cfg2.N) :
    (dat2 V c).flushed 2 t = ((cfg2.win 2).blk t).view.read (Elt Ideal) (clamped (agg V c) (bias V c)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk2 V c 0 t) (iblk2 V c 1 t) p q).trans ?_
  show max (agg V c (((cfg2.win 0).blk t).view.emb (ix2 p q)) + bias V c (((cfg2.win 1).blk t).view.emb (ix2 (0 : Fin 1) q))) _
    = max (agg V c (((cfg2.win 2).blk t).view.emb (ix2 p q)) + bias V c (colOf (((cfg2.win 2).blk t).view.emb (ix2 p q)))) _
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : ((cfg2.win 1).blk t).view.emb (ix2 (0 : Fin 1) q) = colOf (((cfg2.win 2).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  rw [h0, h1]

/-- An index of the result array lies in point `t`'s block iff each coordinate lies in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every row lies in the block of the point `row / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the launch the result array is the clamped table. -/
theorem final (c : Dev nD) : (dat2 V c).arrAt 2 cfg2.N = clamped (agg V c) (bias V c) :=
  (dat2 V c).arrAt_eq_of_cover 2 (clamped (agg V c) (bias V c)) (fun t _ => flushed_eq V c t) cover

end Cert.KernelIdeal.Clamp2

end
-- ==== Proof.Clamp5.lean ====
/-
  A bias-and-clamp launch of the program: it adds a bias row to every row of an aggregated table and clamps the sum
  below at zero.  The table has 100,000 rows of 64 entries and is processed in 10 blocks of 10,000 rows; the bias is
  one row of 64 entries that every block reads whole.  Block t of the result is therefore block t of ONE function of
  the two whole arrays: at (r, f) the larger of zero and the table's entry (r, f) plus the bias entry (0, f).  The
  blocks cover every row (row r lies in block r / 10000), so after the launch the result array is that function.
-/
import proofs.«400588_j11596411699547_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Clamp5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The aggregated table and the bias row as the launch finds them. -/
abbrev agg (c : Dev nD) : S100000x64.Idx → EReal := V c main_v49
abbrev bias (c : Dev nD) : S1x64.Idx → EReal := V c main_v33

/-- The bias entry added in column `i 1`. -/
abbrev colOf (i : S100000x64.Idx) : S1x64.Idx := fun a => match a with
  | ⟨0, _⟩ => ⟨0, Nat.one_pos⟩
  | ⟨1, _⟩ => ⟨(i 1).val, (i 1).isLt⟩

/-- The clamped table: the larger of the zero the body splats and the entry (r, f) plus the bias entry (0, f). -/
def clamped (a : S100000x64.Idx → EReal) (b : S1x64.Idx → EReal) : S100000x64.Idx → EReal :=
  fun i => max (a i + b (colOf i)) (Scalar.ofBits (F := Ideal) .f32 0x00000000#32)

/-- One block's result, entry by entry. -/
theorem pay_apply (x0 : S10000x64.Idx → EReal) (x1 : S1x64.Idx → EReal) (p : Fin 10000) (q : Fin 64) :
    k5_pay1 (F := Ideal) x0 x1 (ix2 p q)
      = max (x0 (ix2 p q) + x1 (ix2 (0 : Fin 1) q)) (Scalar.ofBits (F := Ideal) .f32 0x00000000#32) := by
  unfold k5_pay1
  rw [maximumf_apply, addf_apply, shapeCast_self, shapeCast_self, broadcast_apply]
  refine congrArg (fun z => max (x0 (ix2 p q) + z) _) ?_
  refine broadcastTo_apply x1 _ (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if (64 : ℕ) = 1 then 0 else q.val
    rw [if_neg (by decide)]

theorem hz : (![0, 0] : Fin 2 → Nat) = fun _ => 0 := funext fun a => by fin_cases a <;> rfl

/-- The three index maps, decided over the 10 points: the table's and the result's blocks move along the rows with
    the point, the bias row stays at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the clamped table of the arrays as the launch finds them. -/
theorem flushed_eq (c : Dev nD) (t : Fin cfg5.N) :
    (dat5 V c).flushed 2 t = ((cfg5.win 2).blk t).view.read (Elt Ideal) (clamped (agg V c) (bias V c)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk5 V c 0 t) (iblk5 V c 1 t) p q).trans ?_
  show max (agg V c (((cfg5.win 0).blk t).view.emb (ix2 p q)) + bias V c (((cfg5.win 1).blk t).view.emb (ix2 (0 : Fin 1) q))) _
    = max (agg V c (((cfg5.win 2).blk t).view.emb (ix2 p q)) + bias V c (colOf (((cfg5.win 2).blk t).view.emb (ix2 p q)))) _
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 64 + 1 * q.val = win5_2.index t (1 : Fin 2) * 64 + 1 * q.val; omega
  have h1 : ((cfg5.win 1).blk t).view.emb (ix2 (0 : Fin 1) q) = colOf (((cfg5.win 2).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  rw [h0, h1]

/-- An index of the result array lies in point `t`'s block iff each coordinate lies in the block's range. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v50).slice (win5_2.rect t)).set ↔ _
  rw [View.set_slice_whole, Rect.mem_set_unit]
  exact Iff.rfl

/-- Every row lies in the block of the point `row / 10000`. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5⟩ := idx_facts t
  have ht : t.val = (i 0).val / 10000 := rfl
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the launch the result array is the clamped table. -/
theorem final (c : Dev nD) : (dat5 V c).arrAt 2 cfg5.N = clamped (agg V c) (bias V c) :=
  (dat5 V c).arrAt_eq_of_cover 2 (clamped (agg V c) (bias V c)) (fun t _ => flushed_eq V c t) cover

end Cert.KernelIdeal.Clamp5

end
-- ==== Proof.Bridge.lean ====
/-
  The launches' functions are the reference's stages.

  Each launch of the kernel's program leaves one whole-array function of the arrays it reads (the product plus a
  bias row; the table scaled row by row; the table plus a bias row, clamped at zero).  Entry by entry these are the
  reference's stages: a product is the same sum over the contracted coordinate whether a launch forms it block by
  block or the host forms it at once, adding a zero row adds 0, a column cast of the coefficient vector and a row cast
  of a bias vector read the vector's own entries, and the two broadcasts the reference spells out pick the same
  entries.  The filling row gather is the reference's plain gather because every source is in range.
-/
import proofs.«400588_j11596411699547_3_alg».proof.Proof.RefRead
import proofs.«400588_j11596411699547_3_alg».proof.Proof.SrcRange
import proofs.«400588_j11596411699547_3_alg».proof.Proof.HostChain
import proofs.«400588_j11596411699547_3_alg».proof.Proof.LibTakeFill
import proofs.«400588_j11596411699547_3_alg».proof.Proof.Dense0
import proofs.«400588_j11596411699547_3_alg».proof.Proof.Dense3
import proofs.«400588_j11596411699547_3_alg».proof.Proof.Dense6
import proofs.«400588_j11596411699547_3_alg».proof.Proof.Scale1
import proofs.«400588_j11596411699547_3_alg».proof.Proof.Scale4
import proofs.«400588_j11596411699547_3_alg».proof.Proof.Clamp2
import proofs.«400588_j11596411699547_3_alg».proof.Proof.Clamp5
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.ReadP
open scoped BigOperators

/-- A broadcast of the zero word is 0 at every entry. -/
theorem zero_bcast {t : Shape} (h : S_.BroadcastsInDim t ![]) (i : t.Idx) :
    broadcastInDim t ![] h (constant (F := Ideal) S_ .f32 0x00000000#32) i = 0 := by
  refine (broadcastInDim_apply _ h _ i ix0 (fun a => a.elim0)).trans ?_
  rw [constant_apply, Ideal.ofBits_zero_f32]

/-- A vector cast to a one-row matrix reads, at (0, f), the vector's entry f. -/
theorem rowCast_apply {n : ℕ} (b : (⟨1, ![n]⟩ : Shape).Idx → EReal) (h : (⟨1, ![n]⟩ : Shape).ShapeCasts ⟨2, ![1, n]⟩)
    (j : (⟨2, ![1, n]⟩ : Shape).Idx) (k : (⟨1, ![n]⟩ : Shape).Idx) (hk : (k 0).val = (j 1).val) :
    shapeCast ⟨2, ![1, n]⟩ b h j = b k := by
  refine shapeCast_apply b h j k ?_
  rw [Shape.rowMajor_val_one, Shape.rowMajor_val_two]
  have h0 : (j 0).val < 1 := (j 0).isLt
  show (k 0).val = (j 0).val * n + (j 1).val
  have : (j 0).val = 0 := by omega
  rw [this, hk]; omega

/-- A vector cast to a one-column matrix reads, at (r, 0), the vector's entry r. -/
theorem colCast_apply {n : ℕ} (v : (⟨1, ![n]⟩ : Shape).Idx → EReal) (h : (⟨1, ![n]⟩ : Shape).ShapeCasts ⟨2, ![n, 1]⟩)
    (j : (⟨2, ![n, 1]⟩ : Shape).Idx) (k : (⟨1, ![n]⟩ : Shape).Idx) (hk : (k 0).val = (j 0).val) :
    shapeCast ⟨2, ![n, 1]⟩ v h j = v k := by
  refine shapeCast_apply v h j k ?_
  rw [Shape.rowMajor_val_one, Shape.rowMajor_val_two]
  have h1 : (j 1).val < 1 := (j 1).isLt
  show (k 0).val = (j 0).val * 1 + (j 1).val
  rw [hk]; omega

/-! ## The three products -/

theorem dense0_eq (x : S100000x128.Idx → EReal) (w : S128x64.Idx → EReal) (h : S_.BroadcastsInDim S1x64 ![]) :
    Cert.KernelIdeal.Dense0.affine x w (broadcastInDim S1x64 ![] h (constant (F := Ideal) S_ .f32 0x00000000#32)) = val_main_v31 (F := Ideal) x w := by
  funext i
  rw [val_main_v31_apply]
  unfold Cert.KernelIdeal.Dense0.affine
  rw [zero_bcast, add_zero]
  rfl

theorem dense3_eq (x0 : S100000x128.Idx → EReal) (x1 : IVec S2x1600000 32) (x2 : S128x64.Idx → EReal) (x3 : S64.Idx → EReal)
    (w : S64x64.Idx → EReal) (h : S_.BroadcastsInDim S1x64 ![]) :
    Cert.KernelIdeal.Dense3.affine (val_main_v48 (F := Ideal) x0 x1 x2 x3) w (broadcastInDim S1x64 ![] h (constant (F := Ideal) S_ .f32 0x00000000#32))
      = val_main_v80 (F := Ideal) x0 x1 x2 x3 w := by
  funext i
  rw [val_main_v80_apply]
  unfold Cert.KernelIdeal.Dense3.affine
  rw [zero_bcast, add_zero]
  rfl

theorem dense6_eq (x0 : S100000x128.Idx → EReal) (x1 : IVec S2x1600000 32) (x2 : S128x64.Idx → EReal) (x3 : S64.Idx → EReal)
    (x4 : S64x64.Idx → EReal) (x5 : S64.Idx → EReal) (w : S64x40.Idx → EReal) (b : S40.Idx → EReal) (h : S40.ShapeCasts S1x40) :
    Cert.KernelIdeal.Dense6.affine (val_main_v97 (F := Ideal) x0 x1 x2 x3 x4 x5) w (shapeCast S1x40 b h)
      = val_main_v101 (F := Ideal) x0 x1 x2 x3 x4 x5 w b := by
  funext i
  rw [val_main_v101_apply, val_main_v98_apply, val_main_v100_apply, val_main_v99_apply]
  unfold Cert.KernelIdeal.Dense6.affine
  refine congrArg₂ (· + ·) rfl ?_
  exact rowCast_apply b h _ _ rfl

/-! ## The two scalings -/

theorem scale1_eq (g : S1700000x64.Idx → EReal) (e : IVec S2x1600000 32) (h : S1700000.ShapeCasts S1700000x1) :
    Cert.KernelIdeal.Scale1.scaled g (shapeCast S1700000x1 (val_main_v30 (F := Ideal) e) h) = mulf (F := Ideal) (φ := .f32) g (val_main_v40 (F := Ideal) e) := by
  funext i
  rw [mulf_apply, val_main_v40_apply, val_main_v39_apply]
  unfold Cert.KernelIdeal.Scale1.scaled
  refine congrArg (g i * ·) ?_
  exact colCast_apply _ h _ _ rfl

theorem scale4_eq (g : S1700000x64.Idx → EReal) (e : IVec S2x1600000 32) (h : S1700000.ShapeCasts S1700000x1) :
    Cert.KernelIdeal.Scale4.scaled g (shapeCast S1700000x1 (val_main_v30 (F := Ideal) e) h) = mulf (F := Ideal) (φ := .f32) g (val_main_v89 (F := Ideal) e) := by
  funext i
  rw [mulf_apply, val_main_v89_apply, val_main_v88_apply, Cert.KernelIdeal.Host.nrm_again]
  unfold Cert.KernelIdeal.Scale4.scaled
  refine congrArg (g i * ·) ?_
  exact colCast_apply _ h _ _ rfl

/-! ## The two clamps -/

theorem clamp2_eq (a : S100000x64.Idx → EReal) (b : S64.Idx → EReal) (h : S64.ShapeCasts S1x64) :
    Cert.KernelIdeal.Clamp2.clamped a (shapeCast S1x64 b h) = maximumf (F := Ideal) (φ := .f32) (addf (F := Ideal) (φ := .f32) a (val_main_v46 (F := Ideal) b)) (val_main_call1_v0 (F := Ideal)) := by
  funext i
  rw [maximumf_apply, addf_apply, val_main_v46_apply, val_main_v45_apply, val_main_call1_v0_apply, val_main_call1_cst_apply]
  unfold Cert.KernelIdeal.Clamp2.clamped
  refine congrArg₂ max (congrArg (a i + ·) ?_) rfl
  exact rowCast_apply b h _ _ rfl

theorem clamp5_eq (a : S100000x64.Idx → EReal) (b : S64.Idx → EReal) (h : S64.ShapeCasts S1x64) :
    Cert.KernelIdeal.Clamp5.clamped a (shapeCast S1x64 b h) = maximumf (F := Ideal) (φ := .f32) (addf (F := Ideal) (φ := .f32) a (val_main_v95 (F := Ideal) b)) (val_main_call3_v0 (F := Ideal)) := by
  funext i
  rw [maximumf_apply, addf_apply, val_main_v95_apply, val_main_v94_apply, val_main_call3_v0_apply, val_main_call3_cst_apply]
  unfold Cert.KernelIdeal.Clamp5.clamped
  refine congrArg₂ max (congrArg (a i + ·) ?_) rfl
  exact rowCast_apply b h _ _ rfl

/-! ## The filling row gather -/

/-- With every source in the node range the filling gather returns the gathered rows: every mask bit is one. -/
theorem takeFill_eq (h : S100000x64.Idx → EReal) (e : IVec S2x1600000 32)
    (hs : ∀ j : S1700000.Idx, Cert.SrcRange.InRange (val_main_v3 (F := Ideal) e j)) :
    Cert.KernelIdeal.Host.takeFill (F := Ideal) h (val_main_v3 (F := Ideal) e)
      = Host.gather Cert.KernelIdeal.gather_S100000x64_S1700000x1_S1700000x64_1_0_n_n_0_1_164 h (val_main_v37 (F := Ideal) e) := by
  unfold Cert.KernelIdeal.Host.takeFill
  rw [Cert.KernelIdeal.Host.wrapCol_eq]
  exact Cert.LibTakeFill.take_fill_eq (val_main_v37 (F := Ideal) e) _ _ _ _ _ _ _ _
    (fun i => (Cert.SrcRange.wrapped_bounds e hs i).1) (fun i => (Cert.SrcRange.wrapped_bounds e hs i).2) rfl

end Cert.Bridge

end
-- ==== Proof.Result.lean ====
/-
  The kernel's result is the reference's.

  Boundary by boundary through the kernel's program: what each launch leaves is its function (product plus bias,
  scaled table, clamped table) of the buffers it finds, the host stretches between launches are the reference's own
  gather and scatter-add, and every buffer a launch reads is either the launch before's result or one the first host
  stretch made.  So the result buffer after the seventh launch holds the reference's last stage of the arguments.
  The one place the precondition is used is the row gather: every source is a node id, so the gather fills nothing.
-/
import proofs.«400588_j11596411699547_3_alg».proof.Proof.HostChain
import proofs.«400588_j11596411699547_3_alg».proof.Proof.Bridge

set_option maxRecDepth 16384

noncomputable section

namespace Cert.KernelIdeal.Result

open Cert.KernelIdeal Cert.KernelIdeal.Gen Cert.KernelIdeal.Host Idealize.ShloMosaic Idealize.ShloMosaic.TcCoe Idealize.SL.Sem

variable (m : (ℓ : Loc nD τ sig) → Buf (Elt Ideal) ℓ) (ρ : Dev nD → PrngReg) (c : Dev nD)

/-- The eight arguments as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)

/-- Every message source is a node id. -/
abbrev SourcesOk : Prop := ∀ j, Cert.SrcRange.InRange (Cert.ReferenceIdeal.ReadP.val_main_v3 (F := Ideal) (x1 m c) j)

/-! ## The first layer -/

theorem pre1 : W4 m ρ c (Proc.devRef .tc main_v37) = Cert.ReferenceIdeal.ReadP.val_main_v31 (F := Ideal) (x0 m c) (x2 m c) := by
  refine (W4_arr m ρ c 3).trans ((Dense0.final (V3 m ρ) c).trans ?_)
  show Dense0.affine (W3 m ρ c (Proc.devRef .tc main_arg0)) (W3 m ρ c (Proc.devRef .tc main_arg2)) (W3 m ρ c (Proc.devRef .tc main_v35)) = _
  rw [a0_3, a2_3, z35]
  exact Cert.Bridge.dense0_eq _ _ _

theorem gat1 (hs : SourcesOk m c) : W5 m ρ c (Proc.devRef .tc main_v38) = Cert.ReferenceIdeal.ReadP.val_main_v38 (F := Ideal) (x0 m c) (x1 m c) (x2 m c) := by
  rw [take1, pre1, src4, src3, Cert.Bridge.takeFill_eq _ _ hs]
  exact gather1_eq _ _ _

theorem msg1 (hs : SourcesOk m c) : W6 m ρ c (Proc.devRef .tc main_v39) = Cert.ReferenceIdeal.ReadP.val_main_v41 (F := Ideal) (x0 m c) (x1 m c) (x2 m c) := by
  refine (W6_arr m ρ c 2).trans ((Scale1.final (V5 m ρ) c).trans ?_)
  show Scale1.scaled (W5 m ρ c (Proc.devRef .tc main_v38)) (W5 m ρ c (Proc.devRef .tc main_v31)) = _
  rw [gat1 m ρ c hs, nrm5, nrm3, Cert.Bridge.scale1_eq]
  exact scaled1_eq _ _ _

theorem agg1 (hs : SourcesOk m c) : W7 m ρ c (Proc.devRef .tc main_v42) = Cert.ReferenceIdeal.ReadP.val_main_v44 (F := Ideal) (x0 m c) (x1 m c) (x2 m c) := by
  rw [scat1, msg1 m ρ c hs, dst6, dst3]
  exact scatter1_eq _ _ _

theorem hid1 (hs : SourcesOk m c) : W8 m ρ c (Proc.devRef .tc main_v43) = Cert.ReferenceIdeal.ReadP.val_main_v48 (F := Ideal) (x0 m c) (x1 m c) (x2 m c) (x3 m c) := by
  refine (W8_arr m ρ c 2).trans ((Clamp2.final (V7 m ρ) c).trans ?_)
  show Clamp2.clamped (W7 m ρ c (Proc.devRef .tc main_v42)) (W7 m ρ c (Proc.devRef .tc main_v32)) = _
  rw [agg1 m ρ c hs, b1r7, b1r3, Cert.Bridge.clamp2_eq]
  exact clamped1_eq _ _ _ _

/-! ## The second layer -/

theorem pre2 (hs : SourcesOk m c) : W9 m ρ c (Proc.devRef .tc main_v44) = Cert.ReferenceIdeal.ReadP.val_main_v80 (F := Ideal) (x0 m c) (x1 m c) (x2 m c) (x3 m c) (x4 m c) := by
  refine (W9_arr m ρ c 3).trans ((Dense3.final (V8 m ρ) c).trans ?_)
  show Dense3.affine (W8 m ρ c (Proc.devRef .tc main_v43)) (W8 m ρ c (Proc.devRef .tc main_arg4)) (W8 m ρ c (Proc.devRef .tc main_v36)) = _
  rw [hid1 m ρ c hs, a4_8, a4_3, z36_8, z36]
  exact Cert.Bridge.dense3_eq _ _ _ _ _ _

theorem gat2 (hs : SourcesOk m c) : W10 m ρ c (Proc.devRef .tc main_v45) = Cert.ReferenceIdeal.ReadP.val_main_v87 (F := Ideal) (x0 m c) (x1 m c) (x2 m c) (x3 m c) (x4 m c) := by
  rw [take2, pre2 m ρ c hs, src9, src3, Cert.Bridge.takeFill_eq _ _ hs]
  exact gather2_eq _ _ _ _ _

theorem msg2 (hs : SourcesOk m c) : W11 m ρ c (Proc.devRef .tc main_v46) = Cert.ReferenceIdeal.ReadP.val_main_v90 (F := Ideal) (x0 m c) (x1 m c) (x2 m c) (x3 m c) (x4 m c) := by
  refine (W11_arr m ρ c 2).trans ((Scale4.final (V10 m ρ) c).trans ?_)
  show Scale4.scaled (W10 m ρ c (Proc.devRef .tc main_v45)) (W10 m ρ c (Proc.devRef .tc main_v31)) = _
  rw [gat2 m ρ c hs, nrm10, nrm3, Cert.Bridge.scale4_eq]
  exact scaled2_eq _ _ _ _ _

theorem agg2 (hs : SourcesOk m c) : W12 m ρ c (Proc.devRef .tc main_v49) = Cert.ReferenceIdeal.ReadP.val_main_v93 (F := Ideal) (x0 m c) (x1 m c) (x2 m c) (x3 m c) (x4 m c) := by
  rw [scat2, msg2 m ρ c hs, dst11, dst3]
  exact scatter2_eq _ _ _ _ _

theorem hid2 (hs : SourcesOk m c) : W13 m ρ c (Proc.devRef .tc main_v50) = Cert.ReferenceIdeal.ReadP.val_main_v97 (F := Ideal) (x0 m c) (x1 m c) (x2 m c) (x3 m c) (x4 m c) (x5 m c) := by
  refine (W13_arr m ρ c 2).trans ((Clamp5.final (V12 m ρ) c).trans ?_)
  show Clamp5.clamped (W12 m ρ c (Proc.devRef .tc main_v49)) (W12 m ρ c (Proc.devRef .tc main_v33)) = _
  rw [agg2 m ρ c hs, b2r12, b2r3, Cert.Bridge.clamp5_eq]
  exact clamped2_eq _ _ _ _ _ _

/-! ## The head -/

theorem out (hs : SourcesOk m c) : W14 m ρ c (Proc.devRef .tc main_v51)
    = Cert.ReferenceIdeal.ReadP.val_main_v101 (F := Ideal) (x0 m c) (x1 m c) (x2 m c) (x3 m c) (x4 m c) (x5 m c) (x6 m c) (x7 m c) := by
  refine (W14_arr m ρ c 3).trans ((Dense6.final (V13 m ρ) c).trans ?_)
  show Dense6.affine (W13 m ρ c (Proc.devRef .tc main_v50)) (W13 m ρ c (Proc.devRef .tc main_arg6)) (W13 m ρ c (Proc.devRef .tc main_v34)) = _
  rw [hid2 m ρ c hs, a6_13, a6_3, bhr13, bhr3]
  exact Cert.Bridge.dense6_eq _ _ _ _ _ _ _ _ _

end Cert.KernelIdeal.Result

end
-- ==== Proof.lean ====
/-
  Two graph-convolution layers and a linear head over 100,000 nodes: the kernel's program against the reference.

  Both programs compute, from the edge table, the message sources and targets (each edge plus one self-loop per
  node), the degrees, and the symmetric edge coefficients; then twice: a dense product, a gather of the product's rows
  by source, a scaling of each gathered row by its edge coefficient, a scatter-add of the scaled rows into their
  target rows, a bias and a clamp at zero; then a last dense product plus bias.  The kernel forms the three products,
  the two scalings and the two bias-and-clamp steps in seven launches, block by block, with its operands narrowed
  to bfloat16 in the products and a zero row added where the reference adds nothing; over the extended reals the
  narrowing is the identity and the zero row adds 0, and a launch's blocks are blocks of one whole-array function, so
  each launch leaves exactly the reference's stage.  The gather and the scatter-add are the host's in both programs;
  the kernel's gather fills rows whose source is out of range where the reference's does not, which is why the
  statement asks every source (row 0 of the edge table) to be a node id, 0 ≤ id < 100,000: then nothing is filled.
  The three frames are the generated ones (the reference's is its run with the result dropped); nothing was rewritten
  by the idealization, so there is nothing to preserve.
-/
import proofs.«400588_j11596411699547_3_alg».proof.Defs
import proofs.«400588_j11596411699547_3_alg».proof.Proof.Gen.Kernel
import proofs.«400588_j11596411699547_3_alg».proof.Proof.Gen.Kernel.Skeleton
import proofs.«400588_j11596411699547_3_alg».proof.Proof.Gen.Kernel.Launch
import proofs.«400588_j11596411699547_3_alg».proof.Proof.Gen.Kernel.Points
import proofs.«400588_j11596411699547_3_alg».proof.Proof.Gen.Kernel.Frame
import proofs.«400588_j11596411699547_3_alg».proof.Proof.Gen.KernelIdeal
import proofs.«400588_j11596411699547_3_alg».proof.Proof.Gen.KernelIdeal.Skeleton
import proofs.«400588_j11596411699547_3_alg».proof.Proof.Gen.KernelIdeal.Launch
import proofs.«400588_j11596411699547_3_alg».proof.Proof.Gen.KernelIdeal.Points
import proofs.«400588_j11596411699547_3_alg».proof.Proof.Gen.KernelIdeal.Frame
import proofs.«400588_j11596411699547_3_alg».proof.Proof.Gen.ReferenceIdeal
import proofs.«400588_j11596411699547_3_alg».proof.Proof.Gen.Pre_finite_inputs
import proofs.«400588_j11596411699547_3_alg».proof.Proof.RefRun
import proofs.«400588_j11596411699547_3_alg».proof.Proof.RefRead
import proofs.«400588_j11596411699547_3_alg».proof.Proof.SrcRange
import proofs.«400588_j11596411699547_3_alg».proof.Proof.KRun
import proofs.«400588_j11596411699547_3_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Under the precondition every message source is a node id. -/
theorem sources_inRange (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.ReferenceIdeal.S1700000.Idx) :
    Cert.SrcRange.InRange (Cert.ReferenceIdeal.ReadP.val_main_v3 (F := Ideal) (Cert.KernelIdeal.Result.x1 m c) j) :=
  Cert.SrcRange.srcs_inRange _ (fun i => Cert.SrcRange.heads_inRange _ _ _ _ _ _ _ _ (hpre c) i) j

/-- Both programs end with the reference's last stage of the arguments in their result buffer. -/
theorem algebraic : Cert.algebraic_KernelIdeal_ReferenceIdeal := by
  intro m ρ m' ρ' hpre hagree
  refine ⟨_, (θ_run Cert.KernelIdeal.defs _ _).mono (fun r h c => ⟨(h c).1.trans (Cert.KernelIdeal.Result.out m ρ c (sources_inRange m hpre c)), (h c).2⟩)
    (Cert.KernelIdeal.GenRun.run_result m ρ), ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v101_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
